-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x250000 : Shape := ⟨2, ![2, 250000]⟩
abbrev S256x768 : Shape := ⟨2, ![256, 768]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x256 .f32) (main_arg6 : FVec F S2 .f32) (main_arg7 : FVec F S2x256 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S50000x768 .f32) (main_arg1 : IVec S2x250000 32) (main_arg2 : FVec F S256x768 .f32) (main_arg3 : FVec F S256 .f32) (main_arg4 : FVec F S256x768 .f32) (main_arg5 : FVec F S2x256 .f32) (main_arg6 : FVec F S2 .f32) (main_arg7 : FVec F S2x256 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x768 .f32 := Host.absf main_arg4
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg5 main_arg6 main_arg7 main_v13 main_v16
-- ==== Kernel.lean ====
abbrev S50000x768 : Shape := ⟨2, ![50000, 768]⟩
abbrev S2x250000 : Shape := ⟨2, ![2, 250000]⟩
abbrev S256x768 : Shape := ⟨2, ![256, 768]⟩
abbrev S256 : Shape := ⟨1, ![256]⟩
abbrev S2x256 : Shape := ⟨2, ![2, 256]⟩
abbrev S2 : Shape := ⟨1, ![2]⟩
abbrev S1x250000 : Shape := ⟨2, ![1, 250000]⟩
abbrev S250000 : Shape := ⟨1, ![250000]⟩
abbrev S_ : Shape := ⟨0, ![]⟩
abbrev S50000 : Shape := ⟨1, ![50000]⟩
abbrev S250000x1 : Shape := ⟨2, ![250000, 1]⟩
abbrev S50000x1 : Shape := ⟨2, ![50000, 1]⟩
abbrev S250000x768 : Shape := ⟨2, ![250000, 768]⟩
abbrev S768x256 : Shape := ⟨2, ![768, 256]⟩
abbrev S50000x256 : Shape := ⟨2, ![50000, 256]⟩
abbrev S1000x768 : Shape := ⟨2, ![1000, 768]⟩
abbrev S1000x256 : Shape := ⟨2, ![1000, 256]⟩
abbrev S1x256 : Shape := ⟨2, ![1, 256]⟩
abbrev S250000x256 : Shape := ⟨2, ![250000, 256]⟩
abbrev S256x2 : Shape := ⟨2, ![256, 2]⟩
abbrev S50000x2 : Shape := ⟨2, ![50000, 2]⟩
abbrev S5000x256 : Shape := ⟨2, ![5000, 256]⟩
abbrev S5000x2 : Shape := ⟨2, ![5000, 2]⟩
abbrev S1x2 : Shape := ⟨2, ![1, 2]⟩

abbrev nBuf : Space → Nat
  | .hbm => 58
  | .vmem => 18
  | .smem => 0
  | _ => 0

abbrev bufTy : (tb : Table) → Fin (tcTables nBuf tb) → BufTy
  | .hbm, ⟨0, _⟩ => ⟨S50000x768, .f32⟩
  | .hbm, ⟨1, _⟩ => ⟨S2x250000, .i32⟩
  | .hbm, ⟨2, _⟩ => ⟨S256x768, .f32⟩
  | .hbm, ⟨3, _⟩ => ⟨S256, .f32⟩
  | .hbm, ⟨4, _⟩ => ⟨S256x768, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x250000, .i32⟩
  | .hbm, ⟨9, _⟩ => ⟨S250000, .i32⟩
  | .hbm, ⟨10, _⟩ => ⟨S1x250000, .i32⟩
  | .hbm, ⟨11, _⟩ => ⟨S250000, .i32⟩
  | .hbm, ⟨12, _⟩ => ⟨S_, .f32⟩
  | .hbm, ⟨13, _⟩ => ⟨S250000, .f32⟩
  | .hbm, ⟨14, _⟩ => ⟨S_, .f32⟩
  | .hbm, ⟨15, _⟩ => ⟨S50000, .f32⟩
  | .hbm, ⟨16, _⟩ => ⟨S250000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S250000, .i32⟩
  | .hbm, ⟨24, _⟩ => ⟨S250000, .i1⟩
  | .hbm, ⟨25, _⟩ => ⟨S_, .i32⟩
  | .hbm, ⟨26, _⟩ => ⟨S250000, .i32⟩
  | .hbm, ⟨27, _⟩ => ⟨S250000, .i32⟩
  | .hbm, ⟨28, _⟩ => ⟨S250000, .i32⟩
  | .hbm, ⟨29, _⟩ => ⟨S250000x1, .i32⟩
  | .hbm, ⟨30, _⟩ => ⟨S250000x768, .f32⟩
  | .hbm, ⟨31, _⟩ => ⟨S_, .f32⟩
  | .hbm, ⟨32, _⟩ => ⟨S50000x768, .f32⟩
  | .hbm, ⟨33, _⟩ => ⟨S250000x1, .i32⟩
  | .hbm, ⟨34, _⟩ => ⟨S50000x768, .f32⟩
  | .hbm, ⟨35, _⟩ => ⟨S50000x768, .f32⟩
  | .hbm, ⟨36, _⟩ => ⟨S50000x768, .f32⟩
  | .hbm, ⟨37, _⟩ => ⟨S768x256, .f32⟩
  | .hbm, ⟨38, _⟩ => ⟨S768x256, .f32⟩
  | .hbm, ⟨39, _⟩ => ⟨S50000x256, .f32⟩
  | .hbm, ⟨40, _⟩ => ⟨S_, .i32⟩
  | .hbm, ⟨41, _⟩ => ⟨S250000, .i32⟩
  | .hbm, ⟨42, _⟩ => ⟨S250000, .i1⟩
  | .hbm, ⟨43, _⟩ => ⟨S_, .i32⟩
  | .hbm, ⟨44, _⟩ => ⟨S250000, .i32⟩
  | .hbm, ⟨45, _⟩ => ⟨S250000, .i32⟩
  | .hbm, ⟨46, _⟩ => ⟨S250000, .i32⟩
  | .hbm, ⟨47, _⟩ => ⟨S250000x1, .i32⟩
  | .hbm, ⟨48, _⟩ => ⟨S250000x256, .f32⟩
  | .hbm, ⟨49, _⟩ => ⟨S_, .f32⟩
  | .hbm, ⟨50, _⟩ => ⟨S50000x256, .f32⟩
  | .hbm, ⟨51, _⟩ => ⟨S250000x1, .i32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S256x2, .f32⟩
  | .hbm, ⟨56, _⟩ => ⟨S256x2, .f32⟩
  | .hbm, ⟨57, _⟩ => ⟨S50000x2, .f32⟩
  | .local _ .vmem, ⟨0, _⟩ => ⟨S1000x768, .f32⟩
  | .local _ .vmem, ⟨1, _⟩ => ⟨S1000x768, .f32⟩
  | .local _ .vmem, ⟨2, _⟩ => ⟨S1000x768, .f32⟩
  | .local _ .vmem, ⟨3, _⟩ => ⟨S1000x768, .f32⟩
  | .local _ .vmem, ⟨4, _⟩ => ⟨S768x256, .f32⟩
  | .local _ .vmem, ⟨5, _⟩ => ⟨S768x256, .f32⟩
  | .local _ .vmem, ⟨6, _⟩ => ⟨S256, .f32⟩
  | .local _ .vmem, ⟨7, _⟩ => ⟨S1000x256, .f32⟩
  | .local _ .vmem, ⟨8, _⟩ => ⟨S1000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x2, .f32⟩
  | .local _ .vmem, ⟨14, _⟩ => ⟨S256x2, .f32⟩
  | .local _ .vmem, ⟨15, _⟩ => ⟨S2, .f32⟩
  | .local _ .vmem, ⟨16, _⟩ => ⟨S5000x2, .f32⟩
  | .local _ .vmem, ⟨17, _⟩ => ⟨S5000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  bcast_S_S50000x768 : S_.BroadcastsInDim S50000x768 (![] : Fin 0 → Fin S50000x768.rank)
  bcast_S50000x1_S50000x768_0_1 : S50000x1.BroadcastsInDim S50000x768 (![0, 1] : Fin 2 → Fin S50000x768.rank)
  transposes_S256x768_S768x256_1_0 : S256x768.Transposes [1, 0] S768x256
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S2x256_S256x2_1_0 : S2x256.Transposes [1, 0] S256x2
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S250000x1_S250000_n_0_0_1_wf : ScatterDims.WF S50000 S250000x1 S250000 [] [0] [0] 1
  gather_S50000x768_S250000x1_S250000x768_1_0_n_n_0_1_1768_wf : GatherDims.WF S50000x768 S250000x1 S250000x768 [1] [0] [] [0] [] 1 ![1, 768]
  scatter_S50000x768_S250000x1_S250000x768_1_0_0_1_wf : ScatterDims.WF S50000x768 S250000x1 S250000x768 [1] [0] [0] 1
  dot_S1000x768_S768x256_S1000x256_1_0_0_1_n_n_wf : DotDims.WF S1000x768 S768x256 S1000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S50000x768.size a
  hwx0_0 : ∀ i : grid0.Coords, EltTy.bits .f32 = 32 ∨ (Rect.block (s := S50000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S50000x768.size a
  hwx0_1 : ∀ i : grid0.Coords, EltTy.bits .f32 = 32 ∨ (Rect.block (s := S50000x768) S1000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .f32 = 32 ∨ (Rect.block (s := S768x256) S768x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2.size a ≤ S256x2.size a
  hwx1_2 : ∀ i : grid1.Coords, EltTy.bits .f32 = 32 ∨ (Rect.block (s := S256x2) S256x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S256x2.size a
  hwx1_3 : ∀ i : grid1.Coords, EltTy.bits .f32 = 32 ∨ (Rect.block (s := S256x2) S256x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2.size a ≤ S2.size a
  hwx1_4 : ∀ i : grid1.Coords, EltTy.bits .f32 = 32 ∨ (Rect.block (s := S2) S2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S50000x2.size a
  hwx1_5 : ∀ i : grid1.Coords, EltTy.bits .f32 = 32 ∨ (Rect.block (s := S50000x2) S5000x2.size (cc1_transform_5 i) (hinb1_5 i)).WholeWords (EltTy.packing .f32)

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x768_S250000x1_S250000x768_1_0_n_n_0_1_1768 : GatherDims S50000x768 S250000x1 S250000x768 where
  offsetDims := [1]
  collapsedSliceDims := [0]
  operandBatchingDims := []
  startIndicesBatchingDims := []
  startIndexMap := [0]
  indexVectorDim := 1
  sliceSizes := ![1, 768]
  wf := gather_S50000x768_S250000x1_S250000x768_1_0_n_n_0_1_1768_wf
def scatter_S50000x768_S250000x1_S250000x768_1_0_0_1 : ScatterDims S50000x768 S250000x1 S250000x768 where
  updateWindowDims := [1]
  insertedWindowDims := [0]
  scatterDimsToOperandDims := [0]
  indexVectorDim := 1
  wf := scatter_S50000x768_S250000x1_S250000x768_1_0_0_1_wf
def dot_S1000x768_S768x256_S1000x256_1_0_0_1_n_n : DotDims S1000x768 S768x256 S1000x256 where
  lhsContracting := [1]
  rhsContracting := [0]
  lhsNonContracting := [0]
  rhsNonContracting := [1]
  lhsBatch := []
  rhsBatch := []
  wf := dot_S1000x768_S768x256_S1000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_v22) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S256x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S256x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x768 : Shape := ⟨2, ![50000, 768]⟩
abbrev S2x250000 : Shape := ⟨2, ![2, 250000]⟩
abbrev S256x768 : Shape := ⟨2, ![256, 768]⟩
abbrev S256 : Shape := ⟨1, ![256]⟩
abbrev S2x256 : Shape := ⟨2, ![2, 256]⟩
abbrev S2 : Shape := ⟨1, ![2]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x768 : Shape := ⟨2, ![250000, 768]⟩
abbrev S50000 : Shape := ⟨1, ![50000]⟩
abbrev S50000x1 : Shape := ⟨2, ![50000, 1]⟩
abbrev S768x256 : Shape := ⟨2, ![768, 256]⟩
abbrev S50000x256 : Shape := ⟨2, ![50000, 256]⟩
abbrev S1x256 : Shape := ⟨2, ![1, 256]⟩
abbrev S250000x256 : Shape := ⟨2, ![250000, 256]⟩
abbrev S256x2 : Shape := ⟨2, ![256, 2]⟩
abbrev S50000x2 : Shape := ⟨2, ![50000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x250000, .i32⟩
  | .hbm, ⟨2, _⟩ => ⟨S256x768, .f32⟩
  | .hbm, ⟨3, _⟩ => ⟨S256, .f32⟩
  | .hbm, ⟨4, _⟩ => ⟨S256x768, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x250000, .i32⟩
  | .hbm, ⟨9, _⟩ => ⟨S250000, .i32⟩
  | .hbm, ⟨10, _⟩ => ⟨S1x250000, .i32⟩
  | .hbm, ⟨11, _⟩ => ⟨S250000, .i32⟩
  | .hbm, ⟨12, _⟩ => ⟨S_, .i32⟩
  | .hbm, ⟨13, _⟩ => ⟨S250000, .i32⟩
  | .hbm, ⟨14, _⟩ => ⟨S250000, .i1⟩
  | .hbm, ⟨15, _⟩ => ⟨S_, .i32⟩
  | .hbm, ⟨16, _⟩ => ⟨S250000, .i32⟩
  | .hbm, ⟨17, _⟩ => ⟨S250000, .i32⟩
  | .hbm, ⟨18, _⟩ => ⟨S250000, .i32⟩
  | .hbm, ⟨19, _⟩ => ⟨S250000x1, .i32⟩
  | .hbm, ⟨20, _⟩ => ⟨S250000x768, .f32⟩
  | .hbm, ⟨21, _⟩ => ⟨S_, .f32⟩
  | .hbm, ⟨22, _⟩ => ⟨S50000x768, .f32⟩
  | .hbm, ⟨23, _⟩ => ⟨S250000x1, .i32⟩
  | .hbm, ⟨24, _⟩ => ⟨S50000x768, .f32⟩
  | .hbm, ⟨25, _⟩ => ⟨S_, .f32⟩
  | .hbm, ⟨26, _⟩ => ⟨S250000, .f32⟩
  | .hbm, ⟨27, _⟩ => ⟨S_, .f32⟩
  | .hbm, ⟨28, _⟩ => ⟨S50000, .f32⟩
  | .hbm, ⟨29, _⟩ => ⟨S250000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x768, .f32⟩
  | .hbm, ⟨36, _⟩ => ⟨S50000x768, .f32⟩
  | .hbm, ⟨37, _⟩ => ⟨S768x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S768x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S250000, .i32⟩
  | .hbm, ⟨50, _⟩ => ⟨S250000, .i1⟩
  | .hbm, ⟨51, _⟩ => ⟨S_, .i32⟩
  | .hbm, ⟨52, _⟩ => ⟨S250000, .i32⟩
  | .hbm, ⟨53, _⟩ => ⟨S250000, .i32⟩
  | .hbm, ⟨54, _⟩ => ⟨S250000, .i32⟩
  | .hbm, ⟨55, _⟩ => ⟨S250000x1, .i32⟩
  | .hbm, ⟨56, _⟩ => ⟨S250000x256, .f32⟩
  | .hbm, ⟨57, _⟩ => ⟨S_, .f32⟩
  | .hbm, ⟨58, _⟩ => ⟨S50000x256, .f32⟩
  | .hbm, ⟨59, _⟩ => ⟨S250000x1, .i32⟩
  | .hbm, ⟨60, _⟩ => ⟨S50000x256, .f32⟩
  | .hbm, ⟨61, _⟩ => ⟨S_, .f32⟩
  | .hbm, ⟨62, _⟩ => ⟨S250000, .f32⟩
  | .hbm, ⟨63, _⟩ => ⟨S_, .f32⟩
  | .hbm, ⟨64, _⟩ => ⟨S50000, .f32⟩
  | .hbm, ⟨65, _⟩ => ⟨S250000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x2, .f32⟩
  | .hbm, ⟨74, _⟩ => ⟨S50000x2, .f32⟩
  | .hbm, ⟨75, _⟩ => ⟨S1x2, .f32⟩
  | .hbm, ⟨76, _⟩ => ⟨S50000x2, .f32⟩
  | .hbm, ⟨77, _⟩ => ⟨S50000x2, .f32⟩
  | .hbm, ⟨78, _⟩ => ⟨S256x2, .f32⟩
  | .hbm, ⟨79, _⟩ => ⟨S50000x2, .f32⟩
  | .hbm, ⟨80, _⟩ => ⟨S50000x2, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  bcast_S_S50000x768 : S_.BroadcastsInDim S50000x768 (![] : Fin 0 → Fin S50000x768.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x768_0_1 : S50000x1.BroadcastsInDim S50000x768 (![0, 1] : Fin 2 → Fin S50000x768.rank)
  transposes_S256x768_S768x256_1_0 : S256x768.Transposes [1, 0] S768x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S2x256_S256x2_1_0 : S2x256.Transposes [1, 0] S256x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x768_S250000x1_S250000x768_1_0_n_n_0_1_1768_wf : GatherDims.WF S50000x768 S250000x1 S250000x768 [1] [0] [] [0] [] 1 ![1, 768]
  scatter_S50000x768_S250000x1_S250000x768_1_0_0_1_wf : ScatterDims.WF S50000x768 S250000x1 S250000x768 [1] [0] [0] 1
  scatter_S50000_S250000x1_S250000_n_0_0_1_wf : ScatterDims.WF S50000 S250000x1 S250000 [] [0] [0] 1
  dot_S50000x768_S768x256_S50000x256_1_0_0_1_n_n_wf : DotDims.WF S50000x768 S768x256 S50000x256 [1] [0] [0] [1] [] []
  gather_S50000x256_S250000x1_S250000x256_1_0_n_n_0_1_1256_wf : GatherDims.WF S50000x256 S250000x1 S250000x256 [1] [0] [] [0] [] 1 ![1, 256]
  scatter_S50000x256_S250000x1_S250000x256_1_0_0_1_wf : ScatterDims.WF S50000x256 S250000x1 S250000x256 [1] [0] [0] 1
  dot_S50000x256_S256x2_S50000x2_1_0_0_1_n_n_wf : DotDims.WF S50000x256 S256x2 S50000x2 [1] [0] [0] [1] [] []

variable [Facts₀]

def gather_S50000x768_S250000x1_S250000x768_1_0_n_n_0_1_1768 : GatherDims S50000x768 S250000x1 S250000x768 where
  offsetDims := [1]
  collapsedSliceDims := [0]
  operandBatchingDims := []
  startIndicesBatchingDims := []
  startIndexMap := [0]
  indexVectorDim := 1
  sliceSizes := ![1, 768]
  wf := gather_S50000x768_S250000x1_S250000x768_1_0_n_n_0_1_1768_wf
def scatter_S50000x768_S250000x1_S250000x768_1_0_0_1 : ScatterDims S50000x768 S250000x1 S250000x768 where
  updateWindowDims := [1]
  insertedWindowDims := [0]
  scatterDimsToOperandDims := [0]
  indexVectorDim := 1
  wf := scatter_S50000x768_S250000x1_S250000x768_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.Chain.lean ====
/-
  The host arithmetic both programs share: the mean aggregation over incoming edges.

  From the edge list `e : [2, 250000]` take the source row and the destination row; wrap a negative source index
  by the node count; gather the source nodes' feature rows; add each edge's row into its destination node's row
  (a scatter-add from zeros); and divide every row by the number of incoming edges of its node, at least one
  (that count: ones scatter-added by destination, then the maximum with one, as a column broadcast along the row).
  Both programs print exactly these operations, the kernel's program computing the count once and the reference
  once per layer; none of it is opened here: the functions below only name the chain, so that both sides are seen
  to apply ONE function to equal inputs.
-/
import proofs.«172916_j57200374448341_1_alg».proof.KernelIdeal

noncomputable section

namespace Cert.KernelIdeal.Chain

open Cert.KernelIdeal Idealize.ShloMosaic

variable {F : FTy → Type} [FloatOps F] [Cert.KernelIdeal.Facts]

open Cert.KernelIdeal.Facts₀ Cert.KernelIdeal.Facts

/-- The edges' source nodes. -/
def srcIdx (e : (⟨S2x250000, .i32⟩ : BufTy).Contents (Elt F)) : (⟨S250000, .i32⟩ : BufTy).Contents (Elt F) :=
  shapeCast _ (extractStridedSlice S1x250000 ![0, 0] e slices_S2x250000_S1x250000_0_0) shapeCasts_S1x250000_S250000

/-- The edges' destination nodes. -/
def dstIdx (e : (⟨S2x250000, .i32⟩ : BufTy).Contents (Elt F)) : (⟨S250000, .i32⟩ : BufTy).Contents (Elt F) :=
  shapeCast _ (extractStridedSlice S1x250000 ![1, 0] e slices_S2x250000_S1x250000_1_0) shapeCasts_S1x250000_S250000

/-- Each node's number of incoming edges, at least one, as a column. -/
def cntCol (d : (⟨S250000, .i32⟩ : BufTy).Contents (Elt F)) : (⟨S50000x1, .f32⟩ : BufTy).Contents (Elt F) :=
  broadcastInDim S50000x1 ![0] bcast_S50000_S50000x1_0
    (maximumf
      (Host.scatterAdd scatter_S50000_S250000x1_S250000_n_0_0_1
        (broadcastInDim S50000 ![] bcast_S_S50000 (constant S_ .f32 0x00000000#32))
        (broadcastInDim S250000x1 ![0] bcast_S250000_S250000x1_0 d)
        (broadcastInDim S250000 ![] bcast_S_S250000 (constant S_ .f32 0x3F800000#32)))
      (broadcastInDim S50000 ![] bcast_S_S50000 (constant S_ .f32 0x3F800000#32)))

/-- The source indices as a column, a negative index wrapped by the node count. -/
def srcCol (s : (⟨S250000, .i32⟩ : BufTy).Contents (Elt F)) : (⟨S250000x1, .i32⟩ : BufTy).Contents (Elt F) :=
  broadcastInDim S250000x1 ![0] bcast_S250000_S250000x1_0
    (select (cmpi .slt s (broadcastInDim S250000 ![] bcast_S_S250000 (constantI S_ 32 0#32)))
      (addi s (broadcastInDim S250000 ![] bcast_S_S250000 (constantI S_ 32 50000#32))) s)

/-- The mean of the incoming neighbours' rows of a `[50000, 768]` array. -/
def mean768 (x : (⟨S50000x768, .f32⟩ : BufTy).Contents (Elt F)) (s d : (⟨S250000, .i32⟩ : BufTy).Contents (Elt F))
    (cnt : (⟨S50000x1, .f32⟩ : BufTy).Contents (Elt F)) : (⟨S50000x768, .f32⟩ : BufTy).Contents (Elt F) :=
  Host.divf
    (Host.scatterAdd scatter_S50000x768_S250000x1_S250000x768_1_0_0_1
      (broadcastInDim S50000x768 ![] bcast_S_S50000x768 (constant S_ .f32 0x00000000#32))
      (broadcastInDim S250000x1 ![0] bcast_S250000_S250000x1_0 d)
      (Host.gather gather_S50000x768_S250000x1_S250000x768_1_0_n_n_0_1_1768 x (srcCol s)))
    (broadcastInDim S50000x768 ![0, 1] bcast_S50000x1_S50000x768_0_1 cnt)

/-- The mean of the incoming neighbours' rows of a `[50000, 256]` array. -/
def mean256 (h : (⟨S50000x256, .f32⟩ : BufTy).Contents (Elt F)) (s d : (⟨S250000, .i32⟩ : BufTy).Contents (Elt F))
    (cnt : (⟨S50000x1, .f32⟩ : BufTy).Contents (Elt F)) : (⟨S50000x256, .f32⟩ : BufTy).Contents (Elt F) :=
  Host.divf
    (Host.scatterAdd scatter_S50000x256_S250000x1_S250000x256_1_0_0_1
      (broadcastInDim S50000x256 ![] bcast_S_S50000x256 (constant S_ .f32 0x00000000#32))
      (broadcastInDim S250000x1 ![0] bcast_S250000_S250000x1_0 d)
      (Host.gather gather_S50000x256_S250000x1_S250000x256_1_0_n_n_0_1_1256 h (srcCol s)))
    (broadcastInDim S50000x256 ![0, 1] bcast_S50000x1_S50000x256_0_1 cnt)

/-- A first-layer weight matrix transposed to `[768, 256]`. -/
def wT1 (w : (⟨S256x768, .f32⟩ : BufTy).Contents (Elt F)) : (⟨S768x256, .f32⟩ : BufTy).Contents (Elt F) :=
  transpose S768x256 [1, 0] w transposes_S256x768_S768x256_1_0

/-- A second-layer weight matrix transposed to `[256, 2]`. -/
def wT2 (w : (⟨S2x256, .f32⟩ : BufTy).Contents (Elt F)) : (⟨S256x2, .f32⟩ : BufTy).Contents (Elt F) :=
  transpose S256x2 [1, 0] w transposes_S2x256_S256x2_1_0

end Cert.KernelIdeal.Chain

end
-- ==== Proof.Boundary.lean ====
/-
  What the program's arrays hold where each pallas_call is entered, as functions of the launch memory.

  Before the first call the host operations compute the edges' source and destination indices, the in-degree column
  and the mean-aggregated node features, and transpose the two first-layer weight matrices; the node features and
  the bias are arguments, untouched.  Between the calls they aggregate the first call's result the same way (reusing
  the indices and the in-degree column computed before it) and transpose the second layer's weights.  Each array
  is read off the fold of the host operations over the contents at the previous boundary; the shared aggregation is
  named by the functions of the chain module and never opened.
-/
import proofs.«172916_j57200374448341_1_alg».proof.Proof.Gen.KernelIdeal.Frame
import proofs.«172916_j57200374448341_1_alg».proof.Proof.Chain
import Idealize.ShloMosaic.Lib.StableHlo.Run

set_option maxRecDepth 16384

noncomputable section

namespace Cert.KernelIdeal.Boundary

open Cert.KernelIdeal Cert.KernelIdeal.Gen Cert.KernelIdeal.Chain
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## At the first call's entry -/

theorem W1_src (c : Dev nD) :
    W1 m ρ c (Proc.devRef .tc main_v1) = srcIdx (m ((c : Thread nD τ).loc main_arg1)) := by
  show StableHlo.after hostOps0 (W0 m ρ c) (Proc.devRef .tc main_v1) = _
  after_results
  rfl

theorem W1_dst (c : Dev nD) :
    W1 m ρ c (Proc.devRef .tc main_v3) = dstIdx (m ((c : Thread nD τ).loc main_arg1)) := by
  show StableHlo.after hostOps0 (W0 m ρ c) (Proc.devRef .tc main_v3) = _
  after_results
  rfl

theorem W1_cnt (c : Dev nD) :
    W1 m ρ c (Proc.devRef .tc main_v10) = cntCol (dstIdx (m ((c : Thread nD τ).loc main_arg1))) := by
  show StableHlo.after hostOps0 (W0 m ρ c) (Proc.devRef .tc main_v10) = _
  after_results
  rfl

set_option maxHeartbeats 4000000 in
theorem W1_agg (c : Dev nD) :
    W1 m ρ c (Proc.devRef .tc main_v22)
      = mean768 (m ((c : Thread nD τ).loc main_arg0)) (srcIdx (m ((c : Thread nD τ).loc main_arg1)))
          (dstIdx (m ((c : Thread nD τ).loc main_arg1))) (cntCol (dstIdx (m ((c : Thread nD τ).loc main_arg1)))) := by
  show StableHlo.after hostOps0 (W0 m ρ c) (Proc.devRef .tc main_v22) = _
  after_results_simp
  rfl

theorem W1_x (c : Dev nD) : W1 m ρ c (Proc.devRef .tc main_arg0) = m ((c : Thread nD τ).loc main_arg0) := by
  show StableHlo.after hostOps0 (W0 m ρ c) (Proc.devRef .tc main_arg0) = _
  after_results

theorem W1_b (c : Dev nD) : W1 m ρ c (Proc.devRef .tc main_arg3) = m ((c : Thread nD τ).loc main_arg3) := by
  show StableHlo.after hostOps0 (W0 m ρ c) (Proc.devRef .tc main_arg3) = _
  after_results

theorem W1_wl (c : Dev nD) : W1 m ρ c (Proc.devRef .tc main_v23) = wT1 (m ((c : Thread nD τ).loc main_arg2)) := by
  show StableHlo.after hostOps0 (W0 m ρ c) (Proc.devRef .tc main_v23) = _
  after_results
  rfl

theorem W1_wr (c : Dev nD) : W1 m ρ c (Proc.devRef .tc main_v24) = wT1 (m ((c : Thread nD τ).loc main_arg4)) := by
  show StableHlo.after hostOps0 (W0 m ρ c) (Proc.devRef .tc main_v24) = _
  after_results
  rfl

theorem W1_w2l (c : Dev nD) : W1 m ρ c (Proc.devRef .tc main_arg5) = m ((c : Thread nD τ).loc main_arg5) := by
  show StableHlo.after hostOps0 (W0 m ρ c) (Proc.devRef .tc main_arg5) = _
  after_results

theorem W1_w2r (c : Dev nD) : W1 m ρ c (Proc.devRef .tc main_arg7) = m ((c : Thread nD τ).loc main_arg7) := by
  show StableHlo.after hostOps0 (W0 m ρ c) (Proc.devRef .tc main_arg7) = _
  after_results

theorem W1_b2 (c : Dev nD) : W1 m ρ c (Proc.devRef .tc main_arg6) = m ((c : Thread nD τ).loc main_arg6) := by
  show StableHlo.after hostOps0 (W0 m ρ c) (Proc.devRef .tc main_arg6) = _
  after_results

/-! ## At the first call's exit: its result at what the call leaves, everything else as entered -/

theorem W2_h (c : Dev nD) : W2 m ρ c (Proc.devRef .tc main_v25) = (dat0 (V1 m ρ) c).arrAt 5 cfg0.N := W2_arr m ρ c 5

theorem W2_src (c : Dev nD) : W2 m ρ c (Proc.devRef .tc main_v1) = srcIdx (m ((c : Thread nD τ).loc main_arg1)) :=
  (W2_of_ne m ρ c main_v1 (by decide)).trans (W1_src m ρ c)
theorem W2_dst (c : Dev nD) : W2 m ρ c (Proc.devRef .tc main_v3) = dstIdx (m ((c : Thread nD τ).loc main_arg1)) :=
  (W2_of_ne m ρ c main_v3 (by decide)).trans (W1_dst m ρ c)
theorem W2_cnt (c : Dev nD) : W2 m ρ c (Proc.devRef .tc main_v10) = cntCol (dstIdx (m ((c : Thread nD τ).loc main_arg1))) :=
  (W2_of_ne m ρ c main_v10 (by decide)).trans (W1_cnt m ρ c)
theorem W2_w2l (c : Dev nD) : W2 m ρ c (Proc.devRef .tc main_arg5) = m ((c : Thread nD τ).loc main_arg5) :=
  (W2_of_ne m ρ c main_arg5 (by decide)).trans (W1_w2l m ρ c)
theorem W2_w2r (c : Dev nD) : W2 m ρ c (Proc.devRef .tc main_arg7) = m ((c : Thread nD τ).loc main_arg7) :=
  (W2_of_ne m ρ c main_arg7 (by decide)).trans (W1_w2r m ρ c)
theorem W2_b2 (c : Dev nD) : W2 m ρ c (Proc.devRef .tc main_arg6) = m ((c : Thread nD τ).loc main_arg6) :=
  (W2_of_ne m ρ c main_arg6 (by decide)).trans (W1_b2 m ρ c)

/-! ## At the second call's entry -/

set_option maxHeartbeats 4000000 in
theorem W3_agg (c : Dev nD) :
    W3 m ρ c (Proc.devRef .tc main_v37)
      = mean256 (W2 m ρ c (Proc.devRef .tc main_v25)) (W2 m ρ c (Proc.devRef .tc main_v1))
          (W2 m ρ c (Proc.devRef .tc main_v3)) (W2 m ρ c (Proc.devRef .tc main_v10)) := by
  show StableHlo.after hostOps1 (W2 m ρ c) (Proc.devRef .tc main_v37) = _
  after_results_simp
  rfl

theorem W3_h (c : Dev nD) : W3 m ρ c (Proc.devRef .tc main_v25) = W2 m ρ c (Proc.devRef .tc main_v25) := by
  show StableHlo.after hostOps1 (W2 m ρ c) (Proc.devRef .tc main_v25) = _
  after_results

theorem W3_wl (c : Dev nD) : W3 m ρ c (Proc.devRef .tc main_v38) = wT2 (W2 m ρ c (Proc.devRef .tc main_arg5)) := by
  show StableHlo.after hostOps1 (W2 m ρ c) (Proc.devRef .tc main_v38) = _
  after_results
  rfl

theorem W3_wr (c : Dev nD) : W3 m ρ c (Proc.devRef .tc main_v39) = wT2 (W2 m ρ c (Proc.devRef .tc main_arg7)) := by
  show StableHlo.after hostOps1 (W2 m ρ c) (Proc.devRef .tc main_v39) = _
  after_results
  rfl

theorem W3_b (c : Dev nD) : W3 m ρ c (Proc.devRef .tc main_arg6) = W2 m ρ c (Proc.devRef .tc main_arg6) := by
  show StableHlo.after hostOps1 (W2 m ρ c) (Proc.devRef .tc main_arg6) = _
  after_results

end Cert.KernelIdeal.Boundary

end
-- ==== Proof.Pay.lean ====
/-
  What each kernel body computes, read at one element of its output block, at the ideal instance.

  A body loads a block of aggregated features `x0`, the same rows of the node features `x1`, the two (transposed)
  weight matrices `x2`, `x3` whole and the bias `x4`; it multiplies on the matrix unit into a zero accumulator (the
  narrowing of the operands to bf16 is the identity on extended reals), adds the two products, adds the bias
  broadcast along the rows, and — in the first layer only — clamps at zero.  At row `p`, column `q` of the block
  that is  (Σ_k x0[p,k]·x2[k,q] + Σ_k x1[p,k]·x3[k,q]) + x4[q], clamped or not.
-/
import proofs.«172916_j57200374448341_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The contraction's operand indices, axis by axis -/

theorem lhs0_0 (i : S1000x256.Idx) (q : dot_S1000x768_S768x256_S1000x256_1_0_0_1_n_n.contr.Idx) :
    (dot_S1000x768_S768x256_S1000x256_1_0_0_1_n_n.lhsIdx i q 0).val = (i 0).val := by
  unfold DotDims.lhsIdx
  rw [dif_neg (show ¬(0 : Fin S1000x768.rank) ∈ dot_S1000x768_S768x256_S1000x256_1_0_0_1_n_n.lhsBatch by decide), dif_pos (show (0 : Fin S1000x768.rank) ∈ dot_S1000x768_S768x256_S1000x256_1_0_0_1_n_n.lhsNonContracting by decide)]
  rfl
theorem lhs0_1 (i : S1000x256.Idx) (q : dot_S1000x768_S768x256_S1000x256_1_0_0_1_n_n.contr.Idx) :
    (dot_S1000x768_S768x256_S1000x256_1_0_0_1_n_n.lhsIdx i q 1).val = (q ⟨0, by decide⟩).val :=
  dot_S1000x768_S768x256_S1000x256_1_0_0_1_n_n.lhsIdx_val_of_single rfl i q
theorem rhs0_0 (i : S1000x256.Idx) (q : dot_S1000x768_S768x256_S1000x256_1_0_0_1_n_n.contr.Idx) :
    (dot_S1000x768_S768x256_S1000x256_1_0_0_1_n_n.rhsIdx i q 0).val = (q ⟨0, by decide⟩).val :=
  dot_S1000x768_S768x256_S1000x256_1_0_0_1_n_n.rhsIdx_val_of_single rfl i q
theorem rhs0_1 (i : S1000x256.Idx) (q : dot_S1000x768_S768x256_S1000x256_1_0_0_1_n_n.contr.Idx) :
    (dot_S1000x768_S768x256_S1000x256_1_0_0_1_n_n.rhsIdx i q 1).val = (i 1).val := by
  unfold DotDims.rhsIdx
  rw [dif_neg (show ¬(1 : Fin S768x256.rank) ∈ dot_S1000x768_S768x256_S1000x256_1_0_0_1_n_n.rhsBatch by decide), dif_pos (show (1 : Fin S768x256.rank) ∈ dot_S1000x768_S768x256_S1000x256_1_0_0_1_n_n.rhsNonContracting by decide)]
  rfl

theorem lhs1_0 (i : S5000x2.Idx) (q : dot_S5000x256_S256x2_S5000x2_1_0_0_1_n_n.contr.Idx) :
    (dot_S5000x256_S256x2_S5000x2_1_0_0_1_n_n.lhsIdx i q 0).val = (i 0).val := by
  unfold DotDims.lhsIdx
  rw [dif_neg (show ¬(0 : Fin S5000x256.rank) ∈ dot_S5000x256_S256x2_S5000x2_1_0_0_1_n_n.lhsBatch by decide), dif_pos (show (0 : Fin S5000x256.rank) ∈ dot_S5000x256_S256x2_S5000x2_1_0_0_1_n_n.lhsNonContracting by decide)]
  rfl
theorem lhs1_1 (i : S5000x2.Idx) (q : dot_S5000x256_S256x2_S5000x2_1_0_0_1_n_n.contr.Idx) :
    (dot_S5000x256_S256x2_S5000x2_1_0_0_1_n_n.lhsIdx i q 1).val = (q ⟨0, by decide⟩).val :=
  dot_S5000x256_S256x2_S5000x2_1_0_0_1_n_n.lhsIdx_val_of_single rfl i q
theorem rhs1_0 (i : S5000x2.Idx) (q : dot_S5000x256_S256x2_S5000x2_1_0_0_1_n_n.contr.Idx) :
    (dot_S5000x256_S256x2_S5000x2_1_0_0_1_n_n.rhsIdx i q 0).val = (q ⟨0, by decide⟩).val :=
  dot_S5000x256_S256x2_S5000x2_1_0_0_1_n_n.rhsIdx_val_of_single rfl i q
theorem rhs1_1 (i : S5000x2.Idx) (q : dot_S5000x256_S256x2_S5000x2_1_0_0_1_n_n.contr.Idx) :
    (dot_S5000x256_S256x2_S5000x2_1_0_0_1_n_n.rhsIdx i q 1).val = (i 1).val := by
  unfold DotDims.rhsIdx
  rw [dif_neg (show ¬(1 : Fin S256x2.rank) ∈ dot_S5000x256_S256x2_S5000x2_1_0_0_1_n_n.rhsBatch by decide), dif_pos (show (1 : Fin S256x2.rank) ∈ dot_S5000x256_S256x2_S5000x2_1_0_0_1_n_n.rhsNonContracting by decide)]
  rfl

/-! ## The matrix unit's product into a zero accumulator, at an element -/

/-- One product block at row `p`, column `q`: the sum over the contracted axis of the left operand's row times the
    right operand's column (the accumulator is the zero splat). -/
theorem mm0_apply (l : FVec Ideal S1000x768 .bf16) (r : FVec Ideal S768x256 .bf16) (p : Fin 1000) (q : Fin 256) :
    matmul dot_S1000x768_S768x256_S1000x256_1_0_0_1_n_n none l r (constant (F := Ideal) S1000x256 .f32 0x00000000#32) (ix2 p q)
      = ∑ k : Fin 768, l (ix2 p k) * r (ix2 k q) := by
  simp only [matmul]
  rw [Ideal.matmul_constant_zero_apply, ← Equiv.sum_comp (contrEquiv1 dot_S1000x768_S768x256_S1000x256_1_0_0_1_n_n 768 rfl rfl).symm]
  refine Finset.sum_congr rfl fun k _ => ?_
  have hk := contrEquiv1_symm_val dot_S1000x768_S768x256_S1000x256_1_0_0_1_n_n 768 rfl rfl k
  have el : dot_S1000x768_S768x256_S1000x256_1_0_0_1_n_n.lhsIdx (ix2 p q) ((contrEquiv1 dot_S1000x768_S768x256_S1000x256_1_0_0_1_n_n 768 rfl rfl).symm k) = ix2 p k := funext fun a => Fin.ext (by
    match a with
    | ⟨0, _⟩ => exact lhs0_0 _ _
    | ⟨1, _⟩ => exact (lhs0_1 _ _).trans hk)
  have er : dot_S1000x768_S768x256_S1000x256_1_0_0_1_n_n.rhsIdx (ix2 p q) ((contrEquiv1 dot_S1000x768_S768x256_S1000x256_1_0_0_1_n_n 768 rfl rfl).symm k) = ix2 k q := funext fun a => Fin.ext (by
    match a with
    | ⟨0, _⟩ => exact (rhs0_0 _ _).trans hk
    | ⟨1, _⟩ => exact rhs0_1 _ _)
  rw [el, er]

/-- One product block at row `p`, column `q`: the sum over the contracted axis of the left operand's row times the
    right operand's column (the accumulator is the zero splat). -/
theorem mm1_apply (l : FVec Ideal S5000x256 .bf16) (r : FVec Ideal S256x2 .bf16) (p : Fin 5000) (q : Fin 2) :
    matmul dot_S5000x256_S256x2_S5000x2_1_0_0_1_n_n none l r (constant (F := Ideal) S5000x2 .f32 0x00000000#32) (ix2 p q)
      = ∑ k : Fin 256, l (ix2 p k) * r (ix2 k q) := by
  simp only [matmul]
  rw [Ideal.matmul_constant_zero_apply, ← Equiv.sum_comp (contrEquiv1 dot_S5000x256_S256x2_S5000x2_1_0_0_1_n_n 256 rfl rfl).symm]
  refine Finset.sum_congr rfl fun k _ => ?_
  have hk := contrEquiv1_symm_val dot_S5000x256_S256x2_S5000x2_1_0_0_1_n_n 256 rfl rfl k
  have el : dot_S5000x256_S256x2_S5000x2_1_0_0_1_n_n.lhsIdx (ix2 p q) ((contrEquiv1 dot_S5000x256_S256x2_S5000x2_1_0_0_1_n_n 256 rfl rfl).symm k) = ix2 p k := funext fun a => Fin.ext (by
    match a with
    | ⟨0, _⟩ => exact lhs1_0 _ _
    | ⟨1, _⟩ => exact (lhs1_1 _ _).trans hk)
  have er : dot_S5000x256_S256x2_S5000x2_1_0_0_1_n_n.rhsIdx (ix2 p q) ((contrEquiv1 dot_S5000x256_S256x2_S5000x2_1_0_0_1_n_n 256 rfl rfl).symm k) = ix2 k q := funext fun a => Fin.ext (by
    match a with
    | ⟨0, _⟩ => exact (rhs1_0 _ _).trans hk
    | ⟨1, _⟩ => exact rhs1_1 _ _)
  rw [el, er]

/-! ## The bodies at an element -/

/-- The first layer's body at row `p`, column `q` of its block. -/
theorem pay0_apply (x0 x1 : Vec Ideal S1000x768 .f32) (x2 x3 : Vec Ideal S768x256 .f32) (x4 : Vec Ideal S256 .f32)
    (p : Fin 1000) (q : Fin 256) :
    k0_pay1 (F := Ideal) x0 x1 x2 x3 x4 (ix2 p q)
      = max (((∑ k : Fin 768, x0 (ix2 p k) * x2 (ix2 k q)) + ∑ k : Fin 768, x1 (ix2 p k) * x3 (ix2 k q)) + x4 (ix1 q)) 0 := by
  unfold k0_pay1
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · rw [shapeCast_self, shapeCast_self]
        exact mm0_apply _ _ p q
      · rw [shapeCast_self]
        exact mm0_apply _ _ p q
    · exact (broadcastTo_1b_ab_apply _ _ p q).trans (shapeCast_a_1a_apply x4 _ 0 q)
  · exact Ideal.ofBits_zero_f32

/-- The second layer's body at row `p`, column `q` of its block: no clamp. -/
theorem pay1_apply (x0 x1 : Vec Ideal S5000x256 .f32) (x2 x3 : Vec Ideal S256x2 .f32) (x4 : Vec Ideal S2 .f32)
    (p : Fin 5000) (q : Fin 2) :
    k1_pay1 (F := Ideal) x0 x1 x2 x3 x4 (ix2 p q)
      = ((∑ k : Fin 256, x0 (ix2 p k) * x2 (ix2 k q)) + ∑ k : Fin 256, x1 (ix2 p k) * x3 (ix2 k q)) + x4 (ix1 q) := by
  unfold k1_pay1
  refine (addf_apply _ _ _).trans ?_
  refine congrArg₂ (· + ·) ?_ ?_
  · refine (addf_apply _ _ _).trans ?_
    refine congrArg₂ (· + ·) ?_ ?_
    · rw [shapeCast_self, shapeCast_self]
      exact mm1_apply _ _ p q
    · rw [shapeCast_self, shapeCast_self]
      exact mm1_apply _ _ p q
  · exact (broadcastTo_1b_ab_apply _ _ p q).trans (shapeCast_a_1a_apply x4 _ 0 q)

end Cert.KernelIdeal.Pay

end
-- ==== Proof.Spec.lean ====
/-
  The mathematics of the two layers, as functions of whole arrays at the ideal instance (extended reals).

  One SAGE layer combines, for node `r` and output feature `q`, the aggregated neighbour features `a` and the
  node's own features `x` through two weight matrices (given here already transposed, `[d_in, d_out]`) and a bias:
      (Σ_k a[r,k]·wl[k,q]  +  Σ_k x[r,k]·wr[k,q])  +  b[q].
  The first layer clamps this at zero from below (relu); the second does not.  The kernel computes the two products
  first and adds the bias last; the reference adds the bias to the first product and the second product last: on the
  extended reals addition is commutative and associative, so the two arrangements agree (`add_right_comm`), with no
  finiteness needed.
-/
import Idealize.ShloMosaic.Lib.ValueIdx

noncomputable section

open scoped BigOperators

namespace Cert.Sage

open Idealize.ShloMosaic Idealize.ShloMosaic.ValueIdx

/-- The hidden layer at node `r`, feature `q`: relu of the combined products plus bias. -/
def hidAt (a x : (⟨2, ![50000, 768]⟩ : Shape).Idx → EReal) (wl wr : (⟨2, ![768, 256]⟩ : Shape).Idx → EReal)
    (b : (⟨1, ![256]⟩ : Shape).Idx → EReal) (r : Fin 50000) (q : Fin 256) : EReal :=
  max (((∑ k : Fin 768, a (ix2 r k) * wl (ix2 k q)) + ∑ k : Fin 768, x (ix2 r k) * wr (ix2 k q)) + b (ix1 q)) 0

/-- The hidden layer as a whole array `[50000, 256]`. -/
def hid (a x : (⟨2, ![50000, 768]⟩ : Shape).Idx → EReal) (wl wr : (⟨2, ![768, 256]⟩ : Shape).Idx → EReal)
    (b : (⟨1, ![256]⟩ : Shape).Idx → EReal) : (⟨2, ![50000, 256]⟩ : Shape).Idx → EReal :=
  fun i => hidAt a x wl wr b ⟨(i 0).val, idx2_lt0 i⟩ ⟨(i 1).val, idx2_lt1 i⟩

theorem hid_apply (a x : (⟨2, ![50000, 768]⟩ : Shape).Idx → EReal) (wl wr : (⟨2, ![768, 256]⟩ : Shape).Idx → EReal)
    (b : (⟨1, ![256]⟩ : Shape).Idx → EReal) (r : Fin 50000) (q : Fin 256) :
    hid a x wl wr b (ix2 r q) = hidAt a x wl wr b r q := rfl

/-- The output layer at node `r`, class `q`: the combined products plus bias, no clamp. -/
def outAt (a x : (⟨2, ![50000, 256]⟩ : Shape).Idx → EReal) (wl wr : (⟨2, ![256, 2]⟩ : Shape).Idx → EReal)
    (b : (⟨1, ![2]⟩ : Shape).Idx → EReal) (r : Fin 50000) (q : Fin 2) : EReal :=
  ((∑ k : Fin 256, a (ix2 r k) * wl (ix2 k q)) + ∑ k : Fin 256, x (ix2 r k) * wr (ix2 k q)) + b (ix1 q)

/-- The output layer as a whole array `[50000, 2]`. -/
def out (a x : (⟨2, ![50000, 256]⟩ : Shape).Idx → EReal) (wl wr : (⟨2, ![256, 2]⟩ : Shape).Idx → EReal)
    (b : (⟨1, ![2]⟩ : Shape).Idx → EReal) : (⟨2, ![50000, 2]⟩ : Shape).Idx → EReal :=
  fun i => outAt a x wl wr b ⟨(i 0).val, idx2_lt0 i⟩ ⟨(i 1).val, idx2_lt1 i⟩

theorem out_apply (a x : (⟨2, ![50000, 256]⟩ : Shape).Idx → EReal) (wl wr : (⟨2, ![256, 2]⟩ : Shape).Idx → EReal)
    (b : (⟨1, ![2]⟩ : Shape).Idx → EReal) (r : Fin 50000) (q : Fin 2) :
    out a x wl wr b (ix2 r q) = outAt a x wl wr b r q := rfl

end Cert.Sage

end
-- ==== Proof.Layer1.lean ====
/-
  The first pallas_call's result array, whole: the hidden layer of the specification applied to the arrays the call
  is entered with.

  The grid has 50 points; point `t` stages rows `1000·t … 1000·t + 999` of the aggregated features and of the node
  features, both weight matrices and the bias whole, and writes back rows `1000·t …` of the result.  So what point
  `t` writes back is block `t` of ONE function of the whole arrays (row `1000·t + p` of the block's operands is row
  `1000·t + p` of the arrays), the fifty blocks tile the 50000 rows, and the array ends holding that function.
-/
import proofs.«172916_j57200374448341_1_alg».proof.Proof.Gen.KernelIdeal.Frame
import proofs.«172916_j57200374448341_1_alg».proof.Proof.Pay
import proofs.«172916_j57200374448341_1_alg».proof.Proof.Spec

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows sit at block row `t`, block column 0; the
    whole-array windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A point is below 50. -/
theorem t_lt (t : Fin cfg0.N) : t.val < 50 := N_0 ▸ t.isLt

/-- Row `p` of point `t`'s block is row `1000·t + p` of the array. -/
abbrev row (t : Fin cfg0.N) (p : Fin 1000) : Fin 50000 := ⟨t.val * 1000 + p.val, by have := t_lt t; have := p.isLt; omega⟩

/-! ## The staged blocks, read at an element -/

theorem blk_agg (c : Dev nD) (t : Fin cfg0.N) (p : Fin 1000) (k : Fin 768) :
    iblk0 V c 0 t (ix2 p k) = V c main_v22 (ix2 (row t p) k) := by
  obtain ⟨e0, e1, -⟩ := idx_facts t
  show V c main_v22 (((cfg0.win 0).blk t).view.emb (ix2 p k)) = V c main_v22 (ix2 (row t p) k)
  refine congrArg (V c main_v22) (funext fun a => Fin.ext ?_)
  match a with
  | ⟨0, _⟩ => show win0_0.index t (0 : Fin 2) * 1000 + 1 * p.val = t.val * 1000 + p.val; omega
  | ⟨1, _⟩ => show win0_0.index t (1 : Fin 2) * 768 + 1 * k.val = k.val; omega

theorem blk_x (c : Dev nD) (t : Fin cfg0.N) (p : Fin 1000) (k : Fin 768) :
    iblk0 V c 1 t (ix2 p k) = V c main_arg0 (ix2 (row t p) k) := by
  obtain ⟨-, -, e0, e1, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 1000 + 1 * p.val = t.val * 1000 + p.val; omega
  | ⟨1, _⟩ => show win0_1.index t (1 : Fin 2) * 768 + 1 * k.val = k.val; omega

theorem blk_wl (c : Dev nD) (t : Fin cfg0.N) (k : Fin 768) (q : Fin 256) :
    iblk0 V c 2 t (ix2 k q) = V c main_v23 (ix2 k q) := by
  obtain ⟨-, -, -, -, e0, e1, -⟩ := idx_facts t
  show V c main_v23 (((cfg0.win 2).blk t).view.emb (ix2 k q)) = V c main_v23 (ix2 k q)
  refine congrArg (V c main_v23) (funext fun a => Fin.ext ?_)
  match a with
  | ⟨0, _⟩ => show win0_2.index t (0 : Fin 2) * 768 + 1 * k.val = k.val; omega
  | ⟨1, _⟩ => show win0_2.index t (1 : Fin 2) * 256 + 1 * q.val = q.val; omega

theorem blk_wr (c : Dev nD) (t : Fin cfg0.N) (k : Fin 768) (q : Fin 256) :
    iblk0 V c 3 t (ix2 k q) = V c main_v24 (ix2 k q) := by
  obtain ⟨-, -, -, -, -, -, e0, e1, -⟩ := idx_facts t
  show V c main_v24 (((cfg0.win 3).blk t).view.emb (ix2 k q)) = V c main_v24 (ix2 k q)
  refine congrArg (V c main_v24) (funext fun a => Fin.ext ?_)
  match a with
  | ⟨0, _⟩ => show win0_3.index t (0 : Fin 2) * 768 + 1 * k.val = k.val; omega
  | ⟨1, _⟩ => show win0_3.index t (1 : Fin 2) * 256 + 1 * q.val = q.val; omega

theorem blk_b (c : Dev nD) (t : Fin cfg0.N) (q : Fin 256) :
    iblk0 V c 4 t (ix1 q) = V c main_arg3 (ix1 q) := by
  obtain ⟨-, -, -, -, -, -, -, -, e0, -⟩ := idx_facts t
  show V c main_arg3 (((cfg0.win 4).blk t).view.emb (ix1 q)) = V c main_arg3 (ix1 q)
  refine congrArg (V c main_arg3) (funext fun a => Fin.ext ?_)
  match a with
  | ⟨0, _⟩ => show win0_4.index t (0 : Fin 1) * 256 + 1 * q.val = q.val; omega

/-! ## What a point writes back, and the whole array -/

/-- WHAT POINT `t` WRITES BACK is block `t` of the hidden layer of the arrays the call is entered with. -/
theorem flushed_eq (c : Dev nD) (t : Fin cfg0.N) :
    (dat0 V c).flushed 5 t = ((cfg0.win 5).blk t).view.read (Elt Ideal)
      (Cert.Sage.hid (V c main_v22) (V c main_arg0) (V c main_v23) (V c main_v24) (V c main_arg3)) := by
  show (cfg0.win 5).cut (grid0.coords t) ((dat0 V c).after 5 t) = _
  rw [after0_5]
  unfold out0_5
  rw [View.canon_unit_zero hz2]
  simp only [View.ld_unit_zero (S := S1000x768) hz2, View.ld_unit_zero (S := S768x256) hz2, View.ld_unit_zero (S := S256) hz1]
  funext j
  obtain ⟨p, q, rfl⟩ : ∃ (p : Fin 1000) (q : Fin 256), j = ix2 p q := ⟨j 0, j 1, eq_ix2 j⟩
  obtain ⟨-, -, -, -, -, -, -, -, -, e0, e1⟩ := idx_facts t
  have hemb : ((cfg0.win 5).blk t).view.emb (ix2 p q) = ix2 (row t p) q := by
    funext a; apply Fin.ext
    match a with
    | ⟨0, _⟩ => show win0_5.index t (0 : Fin 2) * 1000 + 1 * p.val = t.val * 1000 + p.val; omega
    | ⟨1, _⟩ => show win0_5.index t (1 : Fin 2) * 256 + 1 * q.val = q.val; omega
  show k0_pay1 (F := Ideal) (iblk0 V c 0 t) (iblk0 V c 1 t) (iblk0 V c 2 t) (iblk0 V c 3 t) (iblk0 V c 4 t) (ix2 p q)
    = Cert.Sage.hid (V c main_v22) (V c main_arg0) (V c main_v23) (V c main_v24) (V c main_arg3) (((cfg0.win 5).blk t).view.emb (ix2 p q))
  rw [hemb, Cert.Sage.hid_apply]
  refine (Pay.pay0_apply (iblk0 V c 0 t) (iblk0 V c 1 t) (iblk0 V c 2 t) (iblk0 V c 3 t) (iblk0 V c 4 t) p q).trans ?_
  unfold Cert.Sage.hidAt
  simp only [blk_agg, blk_x, blk_wl, blk_wr, blk_b]

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v25).slice (win0_5.rect t)).set ↔ _
  rw [View.set_slice_whole, Rect.mem_set_unit]
  exact Iff.rfl

/-- Every index of the result is in some point's block: row `r` is in the block of point `r / 1000`. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 50 := N_0
  let t : Fin cfg0.N := ⟨(i 0).val / 1000, by rw [hN]; omega⟩
  refine ⟨t, flush0_5 t, ?_⟩
  obtain ⟨-, -, -, -, -, -, -, -, -, e0, e1⟩ := idx_facts t
  have ht : t.val = (i 0).val / 1000 := rfl
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

/-- THE RESULT ARRAY after the call: the hidden layer of the arrays the call is entered with. -/
theorem final (c : Dev nD) :
    (dat0 V c).arrAt 5 cfg0.N = Cert.Sage.hid (V c main_v22) (V c main_arg0) (V c main_v23) (V c main_v24) (V c main_arg3) :=
  (dat0 V c).arrAt_eq_of_cover 5 _ (fun t _ => flushed_eq V c t) cover

end Cert.KernelIdeal.Layer1

end
-- ==== Proof.Layer2.lean ====
/-
  The second pallas_call's result array, whole: the output layer of the specification applied to the arrays the call
  is entered with.

  The grid has 10 points; point `t` stages rows `5000·t … 5000·t + 4999` of the aggregated hidden features and of the
  hidden features, both weight matrices and the bias whole, and writes back rows `5000·t …` of the result.  What
  point `t` writes back is block `t` of one function of the whole arrays, the ten blocks tile the 50000 rows, and the
  array ends holding that function.
-/
import proofs.«172916_j57200374448341_1_alg».proof.Proof.Gen.KernelIdeal.Frame
import proofs.«172916_j57200374448341_1_alg».proof.Proof.Pay
import proofs.«172916_j57200374448341_1_alg».proof.Proof.Spec

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows sit at block row `t`, block column 0; the
    whole-array windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A point is below 10. -/
theorem t_lt (t : Fin cfg1.N) : t.val < 10 := N_1 ▸ t.isLt

/-- Row `p` of point `t`'s block is row `5000·t + p` of the array. -/
abbrev row (t : Fin cfg1.N) (p : Fin 5000) : Fin 50000 := ⟨t.val * 5000 + p.val, by have := t_lt t; have := p.isLt; omega⟩

/-! ## The staged blocks, read at an element -/

theorem blk_agg (c : Dev nD) (t : Fin cfg1.N) (p : Fin 5000) (k : Fin 256) :
    iblk1 V c 0 t (ix2 p k) = V c main_v37 (ix2 (row t p) k) := by
  obtain ⟨e0, e1, -⟩ := idx_facts t
  show V c main_v37 (((cfg1.win 0).blk t).view.emb (ix2 p k)) = V c main_v37 (ix2 (row t p) k)
  refine congrArg (V c main_v37) (funext fun a => Fin.ext ?_)
  match a with
  | ⟨0, _⟩ => show win1_0.index t (0 : Fin 2) * 5000 + 1 * p.val = t.val * 5000 + p.val; omega
  | ⟨1, _⟩ => show win1_0.index t (1 : Fin 2) * 256 + 1 * k.val = k.val; omega

theorem blk_h (c : Dev nD) (t : Fin cfg1.N) (p : Fin 5000) (k : Fin 256) :
    iblk1 V c 1 t (ix2 p k) = V c main_v25 (ix2 (row t p) k) := by
  obtain ⟨-, -, e0, e1, -⟩ := idx_facts t
  show V c main_v25 (((cfg1.win 1).blk t).view.emb (ix2 p k)) = V c main_v25 (ix2 (row t p) k)
  refine congrArg (V c main_v25) (funext fun a => Fin.ext ?_)
  match a with
  | ⟨0, _⟩ => show win1_1.index t (0 : Fin 2) * 5000 + 1 * p.val = t.val * 5000 + p.val; omega
  | ⟨1, _⟩ => show win1_1.index t (1 : Fin 2) * 256 + 1 * k.val = k.val; omega

theorem blk_wl (c : Dev nD) (t : Fin cfg1.N) (k : Fin 256) (q : Fin 2) :
    iblk1 V c 2 t (ix2 k q) = V c main_v38 (ix2 k q) := by
  obtain ⟨-, -, -, -, e0, e1, -⟩ := idx_facts t
  show V c main_v38 (((cfg1.win 2).blk t).view.emb (ix2 k q)) = V c main_v38 (ix2 k q)
  refine congrArg (V c main_v38) (funext fun a => Fin.ext ?_)
  match a with
  | ⟨0, _⟩ => show win1_2.index t (0 : Fin 2) * 256 + 1 * k.val = k.val; omega
  | ⟨1, _⟩ => show win1_2.index t (1 : Fin 2) * 2 + 1 * q.val = q.val; omega

theorem blk_wr (c : Dev nD) (t : Fin cfg1.N) (k : Fin 256) (q : Fin 2) :
    iblk1 V c 3 t (ix2 k q) = V c main_v39 (ix2 k q) := by
  obtain ⟨-, -, -, -, -, -, e0, e1, -⟩ := idx_facts t
  show V c main_v39 (((cfg1.win 3).blk t).view.emb (ix2 k q)) = V c main_v39 (ix2 k q)
  refine congrArg (V c main_v39) (funext fun a => Fin.ext ?_)
  match a with
  | ⟨0, _⟩ => show win1_3.index t (0 : Fin 2) * 256 + 1 * k.val = k.val; omega
  | ⟨1, _⟩ => show win1_3.index t (1 : Fin 2) * 2 + 1 * q.val = q.val; omega

theorem blk_b (c : Dev nD) (t : Fin cfg1.N) (q : Fin 2) :
    iblk1 V c 4 t (ix1 q) = V c main_arg6 (ix1 q) := by
  obtain ⟨-, -, -, -, -, -, -, -, e0, -⟩ := idx_facts t
  show V c main_arg6 (((cfg1.win 4).blk t).view.emb (ix1 q)) = V c main_arg6 (ix1 q)
  refine congrArg (V c main_arg6) (funext fun a => Fin.ext ?_)
  match a with
  | ⟨0, _⟩ => show win1_4.index t (0 : Fin 1) * 2 + 1 * q.val = q.val; omega

/-! ## What a point writes back, and the whole array -/

/-- WHAT POINT `t` WRITES BACK is block `t` of the output layer of the arrays the call is entered with. -/
theorem flushed_eq (c : Dev nD) (t : Fin cfg1.N) :
    (dat1 V c).flushed 5 t = ((cfg1.win 5).blk t).view.read (Elt Ideal)
      (Cert.Sage.out (V c main_v37) (V c main_v25) (V c main_v38) (V c main_v39) (V c main_arg6)) := by
  show (cfg1.win 5).cut (grid1.coords t) ((dat1 V c).after 5 t) = _
  rw [after1_5]
  unfold out1_5
  rw [View.canon_unit_zero hz2]
  simp only [View.ld_unit_zero (S := S5000x256) hz2, View.ld_unit_zero (S := S256x2) hz2, View.ld_unit_zero (S := S2) hz1]
  funext j
  obtain ⟨p, q, rfl⟩ : ∃ (p : Fin 5000) (q : Fin 2), j = ix2 p q := ⟨j 0, j 1, eq_ix2 j⟩
  obtain ⟨-, -, -, -, -, -, -, -, -, e0, e1⟩ := idx_facts t
  have hemb : ((cfg1.win 5).blk t).view.emb (ix2 p q) = ix2 (row t p) q := by
    funext a; apply Fin.ext
    match a with
    | ⟨0, _⟩ => show win1_5.index t (0 : Fin 2) * 5000 + 1 * p.val = t.val * 5000 + p.val; omega
    | ⟨1, _⟩ => show win1_5.index t (1 : Fin 2) * 2 + 1 * q.val = q.val; omega
  show k1_pay1 (F := Ideal) (iblk1 V c 0 t) (iblk1 V c 1 t) (iblk1 V c 2 t) (iblk1 V c 3 t) (iblk1 V c 4 t) (ix2 p q)
    = Cert.Sage.out (V c main_v37) (V c main_v25) (V c main_v38) (V c main_v39) (V c main_arg6) (((cfg1.win 5).blk t).view.emb (ix2 p q))
  rw [hemb, Cert.Sage.out_apply]
  refine (Pay.pay1_apply (iblk1 V c 0 t) (iblk1 V c 1 t) (iblk1 V c 2 t) (iblk1 V c 3 t) (iblk1 V c 4 t) p q).trans ?_
  unfold Cert.Sage.outAt
  simp only [blk_agg, blk_h, blk_wl, blk_wr, blk_b]

/-- An index of the array is in point `t`'s block iff each coordinate is in the block's range on its axis. -/
theorem mem_blk (t : Fin cfg1.N) (i : S50000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v40).slice (win1_5.rect t)).set ↔ _
  rw [View.set_slice_whole, Rect.mem_set_unit]
  exact Iff.rfl

/-- Every index of the result is in some point's block: row `r` is in the block of point `r / 5000`. -/
theorem cover (i : S50000x2.Idx) :
    ∃ t : Fin cfg1.N, (cfg1.win 5).flush t = true ∧ i ∈ ((cfg1.win 5).blk t).view.set := by
  have hi0 : (i 0).val < 50000 := (i 0).isLt
  have hi1 : (i 1).val < 2 := (i 1).isLt
  have hN : cfg1.N = 10 := N_1
  let t : Fin cfg1.N := ⟨(i 0).val / 5000, by rw [hN]; omega⟩
  refine ⟨t, flush1_5 t, ?_⟩
  obtain ⟨-, -, -, -, -, -, -, -, -, e0, e1⟩ := idx_facts t
  have ht : t.val = (i 0).val / 5000 := rfl
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 2 ≤ (i 1).val ∧ (i 1).val < win1_5.index t (1 : Fin 2) * 2 + 2; omega

/-- THE RESULT ARRAY after the call: the output layer of the arrays the call is entered with. -/
theorem final (c : Dev nD) :
    (dat1 V c).arrAt 5 cfg1.N = Cert.Sage.out (V c main_v37) (V c main_v25) (V c main_v38) (V c main_v39) (V c main_arg6) :=
  (dat1 V c).arrAt_eq_of_cover 5 _ (fun t _ => flushed_eq V c t) cover

end Cert.KernelIdeal.Layer2

end
-- ==== Proof.Net.lean ====
/-
  The whole network as one function of the eight argument arrays, at the ideal instance: the output layer over the
  mean aggregation of the hidden layer, the hidden layer over the mean aggregation of the node features, the in-degree
  column computed once from the destination indices and used by both aggregations.
-/
import proofs.«172916_j57200374448341_1_alg».proof.Proof.Gen.KernelIdeal
import proofs.«172916_j57200374448341_1_alg».proof.Proof.Chain
import proofs.«172916_j57200374448341_1_alg».proof.Proof.Spec

noncomputable section

namespace Cert.Sage

open Cert.KernelIdeal Cert.KernelIdeal.Chain Idealize.ShloMosaic

/-- The hidden features `[50000, 256]`. -/
def hidden (x : (⟨S50000x768, .f32⟩ : BufTy).Contents (Elt Ideal)) (e : (⟨S2x250000, .i32⟩ : BufTy).Contents (Elt Ideal))
    (w1l : (⟨S256x768, .f32⟩ : BufTy).Contents (Elt Ideal)) (b1 : (⟨S256, .f32⟩ : BufTy).Contents (Elt Ideal))
    (w1r : (⟨S256x768, .f32⟩ : BufTy).Contents (Elt Ideal)) : (⟨S50000x256, .f32⟩ : BufTy).Contents (Elt Ideal) :=
  hid (mean768 x (srcIdx e) (dstIdx e) (cntCol (dstIdx e))) x (wT1 w1l) (wT1 w1r) b1

/-- The network's result `[50000, 2]`. -/
def net (x : (⟨S50000x768, .f32⟩ : BufTy).Contents (Elt Ideal)) (e : (⟨S2x250000, .i32⟩ : BufTy).Contents (Elt Ideal))
    (w1l : (⟨S256x768, .f32⟩ : BufTy).Contents (Elt Ideal)) (b1 : (⟨S256, .f32⟩ : BufTy).Contents (Elt Ideal))
    (w1r : (⟨S256x768, .f32⟩ : BufTy).Contents (Elt Ideal)) (w2l : (⟨S2x256, .f32⟩ : BufTy).Contents (Elt Ideal))
    (b2 : (⟨S2, .f32⟩ : BufTy).Contents (Elt Ideal)) (w2r : (⟨S2x256, .f32⟩ : BufTy).Contents (Elt Ideal)) :
    (⟨S50000x2, .f32⟩ : BufTy).Contents (Elt Ideal) :=
  out (mean256 (hidden x e w1l b1 w1r) (srcIdx e) (dstIdx e) (cntCol (dstIdx e))) (hidden x e w1l b1 w1r)
    (wT2 w2l) (wT2 w2r) b2

end Cert.Sage

end
-- ==== Proof.KernelValue.lean ====
/-
  The kernel's program ends with its result array at the network function of the launch memory's arguments.

  The second call's result is the output layer of the arrays it is entered with; those are the mean aggregation of
  the first call's result (by the host operations between the calls), that result itself, the transposed
  second-layer weights and the bias.  The first call's result is the hidden layer of the arrays IT is entered with:
  the mean aggregation of the node features, the node features, the transposed first-layer weights and the bias.
  Substituting one into the other is the network function.
-/
import proofs.«172916_j57200374448341_1_alg».proof.Proof.Boundary
import proofs.«172916_j57200374448341_1_alg».proof.Proof.Layer1
import proofs.«172916_j57200374448341_1_alg».proof.Proof.Layer2
import proofs.«172916_j57200374448341_1_alg».proof.Proof.RunNamed
import proofs.«172916_j57200374448341_1_alg».proof.Proof.Net

set_option maxRecDepth 16384

noncomputable section

namespace Cert.KernelIdeal.KernelValue

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- After the first call its result array holds the hidden features. -/
theorem hidden_arr (c : Dev nD) :
    W2 m ρ c (Proc.devRef .tc main_v25) = Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [Boundary.W2_h, Layer1.final (V1 m ρ) c]
  show Cert.Sage.hid (W1 m ρ c (Proc.devRef .tc main_v22)) (W1 m ρ c (Proc.devRef .tc main_arg0)) (W1 m ρ c (Proc.devRef .tc main_v23)) (W1 m ρ c (Proc.devRef .tc main_v24)) (W1 m ρ c (Proc.devRef .tc main_arg3)) = _
  rw [Boundary.W1_agg, Boundary.W1_x, Boundary.W1_wl, Boundary.W1_wr, Boundary.W1_b]
  rfl

/-- After the second call its result array holds the network's result. -/
theorem result_arr (c : Dev nD) :
    W4 m ρ c (Proc.devRef .tc main_v40) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Layer2.final (V3 m ρ) c]
  show Cert.Sage.out (W3 m ρ c (Proc.devRef .tc main_v37)) (W3 m ρ c (Proc.devRef .tc main_v25)) (W3 m ρ c (Proc.devRef .tc main_v38)) (W3 m ρ c (Proc.devRef .tc main_v39)) (W3 m ρ c (Proc.devRef .tc main_arg6)) = _
  rw [Boundary.W3_agg, Boundary.W3_h, Boundary.W3_wl, Boundary.W3_wr, Boundary.W3_b, hidden_arr, Boundary.W2_src, Boundary.W2_dst,
    Boundary.W2_cnt, Boundary.W2_w2l, Boundary.W2_w2r, Boundary.W2_b2]
  rfl

/-- The program's run, with the result array at the network function of the arguments and the arguments unchanged. -/
theorem run : θ_run defs (onTc (τ := τ) (main (F := Ideal))) ⟨m, fun _ => 0, ρ⟩ (fun r => ∀ c : Dev nD,
      r.2.mem ((c.tc : Thread nD τ).loc main_v40) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_arr m ρ c), (h c).2⟩) (RunNamed.run_named m ρ)

end Cert.KernelIdeal.KernelValue

end
-- ==== Proof.RefValue.lean ====
/-
  The reference's result is the specification of the two layers over the shared mean aggregation.

  The reference program is read one operation at a time (the generated read-at-an-index lemmas): its two
  `dot_general`s per layer are the sums over the contracted axis, its bias is broadcast along the rows, and it adds
  the bias to the first product before the second product.  The specification adds the two products first; on the
  extended reals the two orders agree by commutativity and associativity of addition.  Its gather, scatter-add,
  in-degree count and division are the very operations the kernel's program applies, named once in the chain module.
-/
import proofs.«172916_j57200374448341_1_alg».proof.Proof.Gen.ReferenceIdeal.Read
import proofs.«172916_j57200374448341_1_alg».proof.Proof.Net

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## The shared operations are the chain's -/

/-- The reference's first aggregation is the chain's mean over incoming edges. -/
theorem agg1_eq (x0 : (⟨S50000x768, .f32⟩ : BufTy).Contents (Elt Ideal)) (x1 : (⟨S2x250000, .i32⟩ : BufTy).Contents (Elt Ideal)) :
    val_main_v22 (F := Ideal) x0 x1 = (Cert.KernelIdeal.Chain.mean768 x0 (Cert.KernelIdeal.Chain.srcIdx x1) (Cert.KernelIdeal.Chain.dstIdx x1) (Cert.KernelIdeal.Chain.cntCol (Cert.KernelIdeal.Chain.dstIdx x1))) := rfl

theorem wl1_eq (x2 : (⟨S256x768, .f32⟩ : BufTy).Contents (Elt Ideal)) : val_main_v23 (F := Ideal) x2 = Cert.KernelIdeal.Chain.wT1 x2 := rfl
theorem wr1_eq (x4 : (⟨S256x768, .f32⟩ : BufTy).Contents (Elt Ideal)) : val_main_v28 (F := Ideal) x4 = Cert.KernelIdeal.Chain.wT1 x4 := rfl
theorem wl2_eq (x5 : (⟨S2x256, .f32⟩ : BufTy).Contents (Elt Ideal)) : val_main_v51 (F := Ideal) x5 = Cert.KernelIdeal.Chain.wT2 x5 := rfl
theorem wr2_eq (x7 : (⟨S2x256, .f32⟩ : BufTy).Contents (Elt Ideal)) : val_main_v56 (F := Ideal) x7 = Cert.KernelIdeal.Chain.wT2 x7 := rfl

/-- The reference's second aggregation is the chain's mean of its own hidden layer (it counts the in-degrees
    afresh: the same operations of the same destination indices). -/
theorem agg2_eq (x0 : (⟨S50000x768, .f32⟩ : BufTy).Contents (Elt Ideal)) (x1 : (⟨S2x250000, .i32⟩ : BufTy).Contents (Elt Ideal)) (x2 : (⟨S256x768, .f32⟩ : BufTy).Contents (Elt Ideal)) (x3 : (⟨S256, .f32⟩ : BufTy).Contents (Elt Ideal)) (x4 : (⟨S256x768, .f32⟩ : BufTy).Contents (Elt Ideal)) :
    val_main_v50 (F := Ideal) x0 x1 x2 x3 x4
      = Cert.KernelIdeal.Chain.mean256 (val_main_v31 (F := Ideal) x0 x1 x2 x3 x4) (Cert.KernelIdeal.Chain.srcIdx x1) (Cert.KernelIdeal.Chain.dstIdx x1) (Cert.KernelIdeal.Chain.cntCol (Cert.KernelIdeal.Chain.dstIdx x1)) := rfl

/-! ## The hidden layer -/

/-- The reference's hidden layer is the specification's: relu of (aggregate·Wl + b) + x·Wr, regrouped. -/
theorem hidden_eq (x0 : (⟨S50000x768, .f32⟩ : BufTy).Contents (Elt Ideal)) (x1 : (⟨S2x250000, .i32⟩ : BufTy).Contents (Elt Ideal)) (x2 : (⟨S256x768, .f32⟩ : BufTy).Contents (Elt Ideal)) (x3 : (⟨S256, .f32⟩ : BufTy).Contents (Elt Ideal)) (x4 : (⟨S256x768, .f32⟩ : BufTy).Contents (Elt Ideal)) :
    val_main_v31 (F := Ideal) x0 x1 x2 x3 x4 = (Cert.Sage.hid (Cert.KernelIdeal.Chain.mean768 x0 (Cert.KernelIdeal.Chain.srcIdx x1) (Cert.KernelIdeal.Chain.dstIdx x1) (Cert.KernelIdeal.Chain.cntCol (Cert.KernelIdeal.Chain.dstIdx x1))) x0 (Cert.KernelIdeal.Chain.wT1 x2) (Cert.KernelIdeal.Chain.wT1 x4) x3) := by
  funext i
  obtain ⟨r, q, rfl⟩ : ∃ (r : Fin 50000) (q : Fin 256), i = ix2 r q := ⟨i 0, i 1, eq_ix2 i⟩
  rw [Cert.Sage.hid_apply]
  unfold Cert.Sage.hidAt
  rw [val_main_v31_apply, val_main_v30_apply, val_main_v27_apply, val_main_v24_apply, val_main_v26_apply, val_main_v25_apply,
    val_main_v29_apply, val_main_call0_v0_apply, val_main_call0_cst_apply, agg1_eq, wl1_eq, wr1_eq]
  have hl1 : ∀ k : Fin 768, lidx_main_v24 (ix2 r q) k = ix2 r k := fun k => funext fun a => Fin.ext (by
    match a with
    | ⟨0, _⟩ => rfl
    | ⟨1, _⟩ => rfl)
  have hr1 : ∀ k : Fin 768, ridx_main_v24 (ix2 r q) k = ix2 k q := fun k => funext fun a => Fin.ext (by
    match a with
    | ⟨0, _⟩ => rfl
    | ⟨1, _⟩ => rfl)
  have hl2 : ∀ k : Fin 768, lidx_main_v29 (ix2 r q) k = ix2 r k := fun k => funext fun a => Fin.ext (by
    match a with
    | ⟨0, _⟩ => rfl
    | ⟨1, _⟩ => rfl)
  have hr2 : ∀ k : Fin 768, ridx_main_v29 (ix2 r q) k = ix2 k q := fun k => funext fun a => Fin.ext (by
    match a with
    | ⟨0, _⟩ => rfl
    | ⟨1, _⟩ => rfl)
  have hb : idx_main_v25 (idx_main_v26 (ix2 r q)) = ix1 q := funext fun a => Fin.ext (by
    match a with
    | ⟨0, _⟩ => rfl)
  simp only [hl1, hr1, hl2, hr2, hb]
  show max ((_ + _) + _) (Ideal.ofBits .f32 0x00000000#32) = _
  rw [Ideal.ofBits_zero_f32, add_right_comm]

/-! ## The output layer -/

/-- The reference's result is the specification's output layer of its hidden layer, regrouped the same way. -/
theorem result_eq (x0 : (⟨S50000x768, .f32⟩ : BufTy).Contents (Elt Ideal)) (x1 : (⟨S2x250000, .i32⟩ : BufTy).Contents (Elt Ideal)) (x2 : (⟨S256x768, .f32⟩ : BufTy).Contents (Elt Ideal)) (x3 : (⟨S256, .f32⟩ : BufTy).Contents (Elt Ideal)) (x4 : (⟨S256x768, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) :
    val_main_v58 (F := Ideal) x0 x1 x2 x3 x4 x5 x6 x7
      = Cert.Sage.out (Cert.KernelIdeal.Chain.mean256 (Cert.Sage.hid (Cert.KernelIdeal.Chain.mean768 x0 (Cert.KernelIdeal.Chain.srcIdx x1) (Cert.KernelIdeal.Chain.dstIdx x1) (Cert.KernelIdeal.Chain.cntCol (Cert.KernelIdeal.Chain.dstIdx x1))) x0 (Cert.KernelIdeal.Chain.wT1 x2) (Cert.KernelIdeal.Chain.wT1 x4) x3) (Cert.KernelIdeal.Chain.srcIdx x1) (Cert.KernelIdeal.Chain.dstIdx x1) (Cert.KernelIdeal.Chain.cntCol (Cert.KernelIdeal.Chain.dstIdx x1)))
          (Cert.Sage.hid (Cert.KernelIdeal.Chain.mean768 x0 (Cert.KernelIdeal.Chain.srcIdx x1) (Cert.KernelIdeal.Chain.dstIdx x1) (Cert.KernelIdeal.Chain.cntCol (Cert.KernelIdeal.Chain.dstIdx x1))) x0 (Cert.KernelIdeal.Chain.wT1 x2) (Cert.KernelIdeal.Chain.wT1 x4) x3) (Cert.KernelIdeal.Chain.wT2 x5) (Cert.KernelIdeal.Chain.wT2 x7) x6 := by
  rw [← hidden_eq x0 x1 x2 x3 x4]
  funext i
  obtain ⟨r, q, rfl⟩ : ∃ (r : Fin 50000) (q : Fin 2), i = ix2 r q := ⟨i 0, i 1, eq_ix2 i⟩
  rw [Cert.Sage.out_apply]
  unfold Cert.Sage.outAt
  rw [val_main_v58_apply, val_main_v55_apply, val_main_v52_apply, val_main_v54_apply, val_main_v53_apply, val_main_v57_apply,
    agg2_eq, wl2_eq, wr2_eq]
  have hl1 : ∀ k : Fin 256, lidx_main_v52 (ix2 r q) k = ix2 r k := fun k => funext fun a => Fin.ext (by
    match a with
    | ⟨0, _⟩ => rfl
    | ⟨1, _⟩ => rfl)
  have hr1 : ∀ k : Fin 256, ridx_main_v52 (ix2 r q) k = ix2 k q := fun k => funext fun a => Fin.ext (by
    match a with
    | ⟨0, _⟩ => rfl
    | ⟨1, _⟩ => rfl)
  have hl2 : ∀ k : Fin 256, lidx_main_v57 (ix2 r q) k = ix2 r k := fun k => funext fun a => Fin.ext (by
    match a with
    | ⟨0, _⟩ => rfl
    | ⟨1, _⟩ => rfl)
  have hr2 : ∀ k : Fin 256, ridx_main_v57 (ix2 r q) k = ix2 k q := fun k => funext fun a => Fin.ext (by
    match a with
    | ⟨0, _⟩ => rfl
    | ⟨1, _⟩ => rfl)
  have hb : idx_main_v53 (idx_main_v54 (ix2 r q)) = ix1 q := funext fun a => Fin.ext (by
    match a with
    | ⟨0, _⟩ => rfl)
  simp only [hl1, hr1, hl2, hr2, hb]
  show (_ + _) + _ = _
  rw [add_right_comm]

/-- The reference's result is the network function of its arguments. -/
theorem result_net (x0 : (⟨S50000x768, .f32⟩ : BufTy).Contents (Elt Ideal)) (x1 : (⟨S2x250000, .i32⟩ : BufTy).Contents (Elt Ideal)) (x2 : (⟨S256x768, .f32⟩ : BufTy).Contents (Elt Ideal)) (x3 : (⟨S256, .f32⟩ : BufTy).Contents (Elt Ideal)) (x4 : (⟨S256x768, .f32⟩ : BufTy).Contents (Elt Ideal)) (x5 : (⟨S2x256, .f32⟩ : BufTy).Contents (Elt Ideal)) (x6 : (⟨S2, .f32⟩ : BufTy).Contents (Elt Ideal)) (x7 : (⟨S2x256, .f32⟩ : BufTy).Contents (Elt Ideal)) :
    val_main_v58 (F := Ideal) x0 x1 x2 x3 x4 x5 x6 x7 = Cert.Sage.net x0 x1 x2 x3 x4 x5 x6 x7 :=
  result_eq x0 x1 x2 x3 x4 x5 x6 x7

end Cert.ReferenceIdeal.RefValue

end
-- ==== Proof.lean ====
/-
  A two-layer GraphSAGE network (mean aggregation): the Pallas program against its jnp reference, over the extended reals.

  Both programs gather the source nodes' rows, scatter-add them by destination and divide by the in-degree (at least
  one) on the host, with the same operations.  The kernel's program then runs each layer's combine
      relu?((agg·Wlᵀ + x·Wrᵀ) + b)
  as a pallas_call over row blocks (1000 rows a point for the first layer, 5000 for the second), the weights staged
  whole; the reference computes (agg·Wlᵀ + b) + x·Wrᵀ with two whole `dot_general`s.  At the ideal instance the bf16
  narrowing before the matrix unit is the identity, a block's product rows are the whole product's rows, and the two
  groupings of the three addends agree because addition of extended reals is commutative and associative: no
  finiteness of the inputs is used.

  The modules: Spec (the two layers as whole-array functions), Chain (the shared host aggregation, named, never
  opened), Net (the network as one function of the arguments), Pay (a kernel body at one element), Layer1 / Layer2
  (each call's result array is the layer of the arrays it is entered with), Boundary (what those arrays are, through
  the host operations), RunNamed (the program's run with its result array named), KernelValue (the kernel's program
  ends at the network function), RefValue (so does the reference).  The three frames: the two kernel programs' are
  the generated frame certificates; the reference's is its generated run with the result dropped.  The ideal pass
  rewrote nothing, so `preserves` is trivial.
-/
import proofs.«172916_j57200374448341_1_alg».proof.Defs
import proofs.«172916_j57200374448341_1_alg».proof.Proof.Gen.Kernel
import proofs.«172916_j57200374448341_1_alg».proof.Proof.Gen.Kernel.Frame
import proofs.«172916_j57200374448341_1_alg».proof.Proof.Gen.KernelIdeal
import proofs.«172916_j57200374448341_1_alg».proof.Proof.Gen.KernelIdeal.Frame
import proofs.«172916_j57200374448341_1_alg».proof.Proof.Gen.ReferenceIdeal
import proofs.«172916_j57200374448341_1_alg».proof.Proof.Gen.Pre_finite_inputs
import proofs.«172916_j57200374448341_1_alg».proof.Proof.Gen.ReferenceIdeal.Run
import proofs.«172916_j57200374448341_1_alg».proof.Proof.Gen.ReferenceIdeal.Read
import proofs.«172916_j57200374448341_1_alg».proof.Proof.KernelValue
import proofs.«172916_j57200374448341_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network function of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, Cert.ReferenceIdeal.RefValue.result_net, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
